-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.named_const.Statement Cert.KernelIdeal.κ "eps_sq" .f32 0x179ABE15#32 ((5316911940649 / 5316911983139663491615228241121378304 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x768 : Shape := ⟨2, ![32768, 768]⟩
abbrev S256x768 : Shape := ⟨2, ![256, 768]⟩
abbrev S256 : Shape := ⟨1, ![256]⟩
abbrev S256x64 : Shape := ⟨2, ![256, 64]⟩
abbrev S1 : Shape := ⟨1, ![1]⟩
abbrev S_ : Shape := ⟨0, ![]⟩

class Facts : Prop where
  bcast_S_S32768x768 : S_.BroadcastsInDim S32768x768 (![] : Fin 0 → Fin S32768x768.rank)
  reducesTo_S32768x768_S_d0_1 : S32768x768.ReducesTo [0, 1] S_
  h_S_ : 0 < S_.numel
  bcast_S_S256x768 : S_.BroadcastsInDim S256x768 (![] : Fin 0 → Fin S256x768.rank)
  reducesTo_S256x768_S_d0_1 : S256x768.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S32768x768 .f32) (main_arg1 : FVec F S256x768 .f32) (main_arg2 : FVec F S256 .f32) (main_arg3 : FVec F S256x64 .f32) (main_arg4 : FVec F S1 .f32) : IVec S_ 1 :=
  let main_v0 : FVec F S32768x768 .f32 := Host.absf main_arg0
  let main_cst : FVec F S_ .f32 := constant S_ .f32 0x7F800000#32
  let main_v1 : FVec F S32768x768 .f32 := broadcastInDim S32768x768 ![] bcast_S_S32768x768 main_cst
  let main_v2 : IVec S32768x768 1 := cmpf .olt main_v0 main_v1
  let main_c : IVec S_ 1 := constantI S_ 1 1#1
  let main_v3 : IVec S_ 1 := (fun x v => Host.reduce IntOp.andi x v reducesTo_S32768x768_S_d0_1 h_S_) main_v2 main_c
  let main_v4 : FVec F S256x768 .f32 := Host.absf main_arg1
  let main_cst_0 : FVec F S_ .f32 := constant S_ .f32 0x7F800000#32
  let main_v5 : FVec F S256x768 .f32 := broadcastInDim S256x768 ![] bcast_S_S256x768 main_cst_0
  let main_v6 : IVec S256x768 1 := cmpf .olt main_v4 main_v5
  let main_c_1 : IVec S_ 1 := constantI S_ 1 1#1
  let main_v7 : IVec S_ 1 := (fun x v => Host.reduce IntOp.andi x v reducesTo_S256x768_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x64 .f32 := Host.absf main_arg3
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg4 main_v13 main_v16
-- ==== Kernel.lean ====
abbrev S32768x768 : Shape := ⟨2, ![32768, 768]⟩
abbrev S256x768 : Shape := ⟨2, ![256, 768]⟩
abbrev S256 : Shape := ⟨1, ![256]⟩
abbrev S256x64 : Shape := ⟨2, ![256, 64]⟩
abbrev S1 : Shape := ⟨1, ![1]⟩
abbrev S768x256 : Shape := ⟨2, ![768, 256]⟩
abbrev S1x256 : Shape := ⟨2, ![1, 256]⟩
abbrev S1x1 : Shape := ⟨2, ![1, 1]⟩
abbrev S64x32768 : Shape := ⟨2, ![64, 32768]⟩
abbrev S4096x768 : Shape := ⟨2, ![4096, 768]⟩
abbrev S64x4096 : Shape := ⟨2, ![64, 4096]⟩
abbrev S4096x256 : Shape := ⟨2, ![4096, 256]⟩
abbrev S4096 : Shape := ⟨1, ![4096]⟩
abbrev S4096x1 : Shape := ⟨2, ![4096, 1]⟩
abbrev S64 : Shape := ⟨1, ![64]⟩
abbrev S1x64 : Shape := ⟨2, ![1, 64]⟩
abbrev S4096x64 : Shape := ⟨2, ![4096, 64]⟩
abbrev S32768x64 : Shape := ⟨2, ![32768, 64]⟩

abbrev nBuf : Space → Nat
  | .hbm => 10
  | .vmem => 8
  | .smem => 0
  | _ => 0

abbrev bufTy : (tb : Table) → Fin (tcTables nBuf tb) → BufTy
  | .hbm, ⟨0, _⟩ => ⟨S32768x768, .f32⟩
  | .hbm, ⟨1, _⟩ => ⟨S256x768, .f32⟩
  | .hbm, ⟨2, _⟩ => ⟨S256, .f32⟩
  | .hbm, ⟨3, _⟩ => ⟨S256x64, .f32⟩
  | .hbm, ⟨4, _⟩ => ⟨S1, .f32⟩
  | .hbm, ⟨5, _⟩ => ⟨S768x256, .f32⟩
  | .hbm, ⟨6, _⟩ => ⟨S1x256, .f32⟩
  | .hbm, ⟨7, _⟩ => ⟨S1x1, .f32⟩
  | .hbm, ⟨8, _⟩ => ⟨S64x32768, .f32⟩
  | .hbm, ⟨9, _⟩ => ⟨S32768x64, .f32⟩
  | .local _ .vmem, ⟨0, _⟩ => ⟨S4096x768, .f32⟩
  | .local _ .vmem, ⟨1, _⟩ => ⟨S4096x768, .f32⟩
  | .local _ .vmem, ⟨2, _⟩ => ⟨S768x256, .f32⟩
  | .local _ .vmem, ⟨3, _⟩ => ⟨S1x256, .f32⟩
  | .local _ .vmem, ⟨4, _⟩ => ⟨S256x64, .f32⟩
  | .local _ .vmem, ⟨5, _⟩ => ⟨S1x1, .f32⟩
  | .local _ .vmem, ⟨6, _⟩ => ⟨S64x4096, .f32⟩
  | .local _ .vmem, ⟨7, _⟩ => ⟨S64x4096, .f32⟩
  | _, _ => ⟨S32768x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S64x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S256x768_S768x256_1_0 : S256x768.Transposes [1, 0] S768x256
  shapeCasts_S256_S1x256 : S256.ShapeCasts S1x256
  shapeCasts_S1_S1x1 : S1.ShapeCasts S1x1
  inb_S4096x768_S4096x768_0_0 : ∀ a, (![0, 0] : Fin 2 → Nat) a + S4096x768.size a ≤ S4096x768.size a
  h_S4096x768 : 0 < S4096x768.numel
  inb_S768x256_S768x256_0_0 : ∀ a, (![0, 0] : Fin 2 → Nat) a + S768x256.size a ≤ S768x256.size a
  h_S768x256 : 0 < S768x256.numel
  shapeCasts_S768x256_S768x256 : S768x256.ShapeCasts S768x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  reduces_S4096x256_S4096 : S4096x256.Reduces [1] S4096
  shapeCasts_S4096_S4096x1 : S4096.ShapeCasts S4096x1
  inb_S256x64_S256x64_0_0 : ∀ a, (![0, 0] : Fin 2 → Nat) a + S256x64.size a ≤ S256x64.size a
  h_S256x64 : 0 < S256x64.numel
  reduces_S256x64_S64 : S256x64.Reduces [0] S64
  shapeCasts_S64_S1x64 : S64.ShapeCasts S1x64
  broadcasts_S1x64_S256x64 : S1x64.Broadcasts S256x64
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  broadcasts_S4096x1_S4096x64 : S4096x1.Broadcasts S4096x64
  transposes_S4096x64_p1_0_S64x4096 : S4096x64.Transposes [1, 0] S64x4096
  inb_S64x4096_S64x4096_0_0 : ∀ a, (![0, 0] : Fin 2 → Nat) a + S64x4096.size a ≤ S64x4096.size a
  h_S64x4096 : 0 < S64x4096.numel
  transposes_S64x32768_S32768x64_1_0 : S64x32768.Transposes [1, 0] S32768x64
  dot_S4096x768_S768x256_S4096x256_1_0_0_1_n_n_wf : DotDims.WF S4096x768 S768x256 S4096x256 [1] [0] [0] [1] [] []
  dot_S4096x256_S256x64_S4096x64_1_0_0_1_n_n_wf : DotDims.WF S4096x256 S256x64 S4096x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x768.size a ≤ S32768x768.size a
  hwx0_0 : ∀ i : grid0.Coords, EltTy.bits .f32 = 32 ∨ (Rect.block (s := S32768x768) S4096x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x256.size a ≤ S768x256.size a
  hwx0_1 : ∀ i : grid0.Coords, EltTy.bits .f32 = 32 ∨ (Rect.block (s := S768x256) S768x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x64.size a ≤ S256x64.size a
  hwx0_3 : ∀ i : grid0.Coords, EltTy.bits .f32 = 32 ∨ (Rect.block (s := S256x64) S256x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S64x4096.size a ≤ S64x32768.size a
  hwx0_5 : ∀ i : grid0.Coords, EltTy.bits .f32 = 32 ∨ (Rect.block (s := S64x32768) S64x4096.size (cc0_transform_5 i) (hinb0_5 i)).WholeWords (EltTy.packing .f32)

variable [Facts₀]

def dot_S4096x768_S768x256_S4096x256_1_0_0_1_n_n : DotDims S4096x768 S768x256 S4096x256 where
  lhsContracting := [1]
  rhsContracting := [0]
  lhsNonContracting := [0]
  rhsNonContracting := [1]
  lhsBatch := []
  rhsBatch := []
  wf := dot_S4096x768_S768x256_S4096x256_1_0_0_1_n_n_wf
def dot_S4096x256_S256x64_S4096x64_1_0_0_1_n_n : DotDims S4096x256 S256x64 S4096x64 where
  lhsContracting := [1]
  rhsContracting := [0]
  lhsNonContracting := [0]
  rhsNonContracting := [1]
  lhsBatch := []
  rhsBatch := []
  wf := dot_S4096x256_S256x64_S4096x64_1_0_0_1_n_n_wf

abbrev win0_0 : Pipeline.Window sig grid0 :=
  Pipeline.Window.ofSpec (Memref.whole main_arg0) S4096x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S768x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S64x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32768x768 : Shape := ⟨2, ![32768, 768]⟩
abbrev S256x768 : Shape := ⟨2, ![256, 768]⟩
abbrev S256 : Shape := ⟨1, ![256]⟩
abbrev S256x64 : Shape := ⟨2, ![256, 64]⟩
abbrev S1 : Shape := ⟨1, ![1]⟩
abbrev S768x256 : Shape := ⟨2, ![768, 256]⟩
abbrev S32768x256 : Shape := ⟨2, ![32768, 256]⟩
abbrev S1x256 : Shape := ⟨2, ![1, 256]⟩
abbrev S_ : Shape := ⟨0, ![]⟩
abbrev S32768 : Shape := ⟨1, ![32768]⟩
abbrev S32768x1 : Shape := ⟨2, ![32768, 1]⟩
abbrev S64 : Shape := ⟨1, ![64]⟩
abbrev S1x64 : Shape := ⟨2, ![1, 64]⟩
abbrev S32768x64 : Shape := ⟨2, ![32768, 64]⟩
abbrev S1x1 : Shape := ⟨2, ![1, 1]⟩

abbrev nBuf : Space → Nat
  | .hbm => 35
  | .vmem => 0
  | .smem => 0
  | _ => 0

abbrev bufTy : (tb : Table) → Fin (tcTables nBuf tb) → BufTy
  | .hbm, ⟨0, _⟩ => ⟨S32768x768, .f32⟩
  | .hbm, ⟨1, _⟩ => ⟨S256x768, .f32⟩
  | .hbm, ⟨2, _⟩ => ⟨S256, .f32⟩
  | .hbm, ⟨3, _⟩ => ⟨S256x64, .f32⟩
  | .hbm, ⟨4, _⟩ => ⟨S1, .f32⟩
  | .hbm, ⟨5, _⟩ => ⟨S768x256, .f32⟩
  | .hbm, ⟨6, _⟩ => ⟨S32768x256, .f32⟩
  | .hbm, ⟨7, _⟩ => ⟨S1x256, .f32⟩
  | .hbm, ⟨8, _⟩ => ⟨S32768x256, .f32⟩
  | .hbm, ⟨9, _⟩ => ⟨S32768x256, .f32⟩
  | .hbm, ⟨10, _⟩ => ⟨S32768x256, .f32⟩
  | .hbm, ⟨11, _⟩ => ⟨S_, .f32⟩
  | .hbm, ⟨12, _⟩ => ⟨S32768, .f32⟩
  | .hbm, ⟨13, _⟩ => ⟨S32768x1, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S32768x256, .f32⟩
  | .hbm, ⟨19, _⟩ => ⟨S32768x256, .f32⟩
  | .hbm, ⟨20, _⟩ => ⟨S256x64, .f32⟩
  | .hbm, ⟨21, _⟩ => ⟨S_, .f32⟩
  | .hbm, ⟨22, _⟩ => ⟨S64, .f32⟩
  | .hbm, ⟨23, _⟩ => ⟨S1x64, .f32⟩
  | .hbm, ⟨24, _⟩ => ⟨S1x64, .f32⟩
  | .hbm, ⟨25, _⟩ => ⟨S_, .f32⟩
  | .hbm, ⟨26, _⟩ => ⟨S1x64, .f32⟩
  | .hbm, ⟨27, _⟩ => ⟨S1x64, .f32⟩
  | .hbm, ⟨28, _⟩ => ⟨S256x64, .f32⟩
  | .hbm, ⟨29, _⟩ => ⟨S256x64, .f32⟩
  | .hbm, ⟨30, _⟩ => ⟨S32768x64, .f32⟩
  | .hbm, ⟨31, _⟩ => ⟨S1, .f32⟩
  | .hbm, ⟨32, _⟩ => ⟨S1x1, .f32⟩
  | .hbm, ⟨33, _⟩ => ⟨S32768x64, .f32⟩
  | .hbm, ⟨34, _⟩ => ⟨S32768x64, .f32⟩
  | _, _ => ⟨S32768x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_v0 : Ref sig .tc := ⟨.hbm, 10, rfl⟩
abbrev main_call0_cst : Ref sig .tc := ⟨.hbm, 11, rfl⟩
abbrev main_call0_v1 : Ref sig .tc := ⟨.hbm, 12, rfl⟩
abbrev main_call0_v2 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_call1_v0 : Ref sig .tc := ⟨.hbm, 20, rfl⟩
abbrev main_call1_cst : Ref sig .tc := ⟨.hbm, 21, rfl⟩
abbrev main_call1_v1 : Ref sig .tc := ⟨.hbm, 22, rfl⟩
abbrev main_call1_v2 : Ref sig .tc := ⟨.hbm, 23, rfl⟩
abbrev main_v10 : Ref sig .tc := ⟨.hbm, 24, rfl⟩
abbrev main_cst_0 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩

abbrev nD : Nat := 1
abbrev τ : Topo := Topo.v7x

variable {F : FTy → Type} [FloatOps F]

class Facts₀ : Prop where
  transposes_S256x768_S768x256_1_0 : S256x768.Transposes [1, 0] S768x256
  bcast_S256_S1x256_1 : S256.BroadcastsInDim S1x256 (![1] : Fin 1 → Fin S1x256.rank)
  bcast_S1x256_S32768x256_0_1 : S1x256.BroadcastsInDim S32768x256 (![0, 1] : Fin 2 → Fin S32768x256.rank)
  reducesTo_S32768x256_S32768_d1 : S32768x256.ReducesTo [1] S32768
  h_S_ : 0 < S_.numel
  bcast_S32768_S32768x1_0 : S32768.BroadcastsInDim S32768x1 (![0] : Fin 1 → Fin S32768x1.rank)
  bcast_S_S32768x1 : S_.BroadcastsInDim S32768x1 (![] : Fin 0 → Fin S32768x1.rank)
  bcast_S32768x1_S32768x256_0_1 : S32768x1.BroadcastsInDim S32768x256 (![0, 1] : Fin 2 → Fin S32768x256.rank)
  reducesTo_S256x64_S64_d0 : S256x64.ReducesTo [0] S64
  bcast_S64_S1x64_1 : S64.BroadcastsInDim S1x64 (![1] : Fin 1 → Fin S1x64.rank)
  bcast_S_S1x64 : S_.BroadcastsInDim S1x64 (![] : Fin 0 → Fin S1x64.rank)
  bcast_S1x64_S256x64_0_1 : S1x64.BroadcastsInDim S256x64 (![0, 1] : Fin 2 → Fin S256x64.rank)
  bcast_S1_S1x1_1 : S1.BroadcastsInDim S1x1 (![1] : Fin 1 → Fin S1x1.rank)
  bcast_S1x1_S32768x64_0_1 : S1x1.BroadcastsInDim S32768x64 (![0, 1] : Fin 2 → Fin S32768x64.rank)
  dot_S32768x768_S768x256_S32768x256_1_0_0_1_n_n_wf : DotDims.WF S32768x768 S768x256 S32768x256 [1] [0] [0] [1] [] []
  dot_S32768x256_S256x64_S32768x64_1_0_0_1_n_n_wf : DotDims.WF S32768x256 S256x64 S32768x64 [1] [0] [0] [1] [] []

variable [Facts₀]

def dot_S32768x768_S768x256_S32768x256_1_0_0_1_n_n : DotDims S32768x768 S768x256 S32768x256 where
  lhsContracting := [1]
  rhsContracting := [0]
  lhsNonContracting := [0]
  rhsNonContracting := [1]
  lhsBatch := []
  rhsBatch := []
  wf := dot_S32768x768_S768x256_S32768x256_1_0_0_1_n_n_wf
def dot_S32768x256_S256x64_S32768x64_1_0_0_1_n_n : DotDims S32768x256 S256x64 S32768x64 where
  lhsContracting := [1]
  rhsContracting := [0]
  lhsNonContracting := [0]
  rhsNonContracting := [1]
  lhsBatch := []
  rhsBatch := []
  wf := dot_S32768x256_S256x64_S32768x64_1_0_0_1_n_n_wf

class Facts : Prop extends Facts₀ where

variable [Facts]
-- ==== Proof.Gate.lean ====
/-
  The cosine gate of ONE token against ONE expert, as a function of the token's projection `p` (a vector over the
  projection features), the expert's normalised similarity column `u` and the temperature factor `E`, in the two
  arrangements the two programs compute it in, and the law that makes them one function on real inputs.

  The reference divides the projection by its clamped Euclidean norm, `p / max (‖p‖) D`, contracts that with `u` and
  scales by `E`. The kernel contracts the unnormalised `p` with `u · E` and scales the result by a reciprocal square
  root of the clamped SQUARED norm, `rsqrt (max ‖p‖² D²)`, refined by one Newton step
  `r ↦ r · (3/2 − 1/2 · a · r · r)`.

  On the reals the two agree: with `a = max ‖p‖² D²` (positive, since `D > 0`) the exact reciprocal root
  `r = 1/√a` is a fixed point of the Newton step (`a · r · r = 1`), the square root is monotone, so
  `max ‖p‖ D = √a`, and the scalar factor `1/√a` moves across the finite sum by distributivity — which is where
  finiteness of the inputs is used: on the extended reals distributivity fails at the infinities.
-/
import Idealize.ShloMosaic.PureOps.Ideal

noncomputable section

namespace Cert.Gate

open Idealize.ShloMosaic

/-- The coercion of the reals into the extended reals commutes with a finite sum. -/
theorem coe_sum {ι : Type} (s : Finset ι) (f : ι → ℝ) :
    (∑ j ∈ s, ((f j : ℝ) : EReal)) = ((∑ j ∈ s, f j : ℝ) : EReal) := by
  classical
  induction s using Finset.induction_on with
  | empty => simp
  | insert a s ha ih => rw [Finset.sum_insert ha, Finset.sum_insert ha, ih, EReal.coe_add]

variable {ι : Type} [Fintype ι]

/-- The kernel's arrangement: contract first, then scale by the Newton-refined reciprocal root of the clamped
    squared norm. `half`, `threeHalves` and `epsSq` are the three constants of the kernel's text. -/
def kernelGate (half threeHalves epsSq : EReal) (p u : ι → EReal) (E : EReal) : EReal :=
  (∑ j, p j * (u j * E)) *
    (Ideal.rsqrt (max (∑ j, p j * p j) epsSq) *
      (threeHalves - half * max (∑ j, p j * p j) epsSq * Ideal.rsqrt (max (∑ j, p j * p j) epsSq)
        * Ideal.rsqrt (max (∑ j, p j * p j) epsSq)))

/-- The reference's arrangement: normalise the projection by its clamped norm, contract, then scale. -/
def refGate (D : EReal) (p u : ι → EReal) (E : EReal) : EReal :=
  (∑ j, Ideal.div (p j) (max (Ideal.sqrt (∑ j, p j * p j)) D) * u j) * E

/-- The square root of a maximum is the maximum of the square roots. -/
theorem sqrt_max (x y : ℝ) : Real.sqrt (max x y) = max (Real.sqrt x) (Real.sqrt y) :=
  Monotone.map_max (f := Real.sqrt) fun _ _ h => Real.sqrt_le_sqrt h

/-- The coercion of the reals into the extended reals is monotone, so it commutes with a maximum. -/
theorem coe_max (x y : ℝ) : ((max x y : ℝ) : EReal) = max (x : EReal) (y : EReal) :=
  Monotone.map_max (f := ((↑) : ℝ → EReal)) EReal.coe_strictMono.monotone

/-- THE LAW. On real projections, real columns, a real temperature factor and a positive clamp `D`, with the kernel's
    clamp the square `D · D` and its two Newton constants `1/2` and `3/2`, the two arrangements are one value. -/
theorem kernelGate_eq_refGate (p u : ι → ℝ) (E D : ℝ) (hD : 0 < D) :
    kernelGate (((1 / 2 : ℝ) : ℝ) : EReal) ((3 / 2 : ℝ) : EReal) ((D * D : ℝ) : EReal)
        (fun j => ((p j : ℝ) : EReal)) (fun j => ((u j : ℝ) : EReal)) (E : EReal)
      = refGate (D : EReal) (fun j => ((p j : ℝ) : EReal)) (fun j => ((u j : ℝ) : EReal)) (E : EReal) := by
  -- the squared norm, a nonnegative real
  have hs0 : 0 ≤ ∑ j, p j * p j := Finset.sum_nonneg fun j _ => mul_self_nonneg (p j)
  have hsum : (∑ j, ((p j : ℝ) : EReal) * ((p j : ℝ) : EReal)) = ((∑ j, p j * p j : ℝ) : EReal) := by
    simp only [← EReal.coe_mul]; exact coe_sum _ _
  -- the clamped squared norm, a positive real, and its root
  have ha0 : 0 < max (∑ j, p j * p j) (D * D) := lt_of_lt_of_le (mul_pos hD hD) (le_max_right _ _)
  have hr0 : Real.sqrt (max (∑ j, p j * p j) (D * D)) ≠ 0 := (Real.sqrt_pos.2 ha0).ne'
  have hmax : max ((∑ j, p j * p j : ℝ) : EReal) ((D * D : ℝ) : EReal) = ((max (∑ j, p j * p j) (D * D) : ℝ) : EReal) :=
    (coe_max _ _).symm
  have hrs : Ideal.rsqrt ((max (∑ j, p j * p j) (D * D) : ℝ) : EReal)
      = (((Real.sqrt (max (∑ j, p j * p j) (D * D)))⁻¹ : ℝ) : EReal) := by
    rw [Ideal.rsqrt_coe, if_neg (not_lt.2 ha0.le), if_neg ha0.ne']
  -- the reference's clamped norm is that same root
  have hsq : Ideal.sqrt ((∑ j, p j * p j : ℝ) : EReal) = ((Real.sqrt (∑ j, p j * p j) : ℝ) : EReal) := by
    rw [Ideal.sqrt_coe, if_neg (not_lt.2 hs0)]
  have hden : max ((Real.sqrt (∑ j, p j * p j) : ℝ) : EReal) ((D : ℝ) : EReal)
      = ((Real.sqrt (max (∑ j, p j * p j) (D * D)) : ℝ) : EReal) := by
    rw [← coe_max, sqrt_max, Real.sqrt_mul_self hD.le]
  -- the exact reciprocal root is a fixed point of the Newton step
  have hone : max (∑ j, p j * p j) (D * D) * (Real.sqrt (max (∑ j, p j * p j) (D * D)))⁻¹
      * (Real.sqrt (max (∑ j, p j * p j) (D * D)))⁻¹ = 1 := by
    rw [mul_assoc, ← mul_inv, Real.mul_self_sqrt ha0.le, mul_inv_cancel₀ ha0.ne']
  have hnewton : (3 / 2 : ℝ) - 1 / 2 * max (∑ j, p j * p j) (D * D) * (Real.sqrt (max (∑ j, p j * p j) (D * D)))⁻¹
      * (Real.sqrt (max (∑ j, p j * p j) (D * D)))⁻¹ = 1 := by
    have : (1 / 2 : ℝ) * max (∑ j, p j * p j) (D * D) * (Real.sqrt (max (∑ j, p j * p j) (D * D)))⁻¹
        * (Real.sqrt (max (∑ j, p j * p j) (D * D)))⁻¹
        = 1 / 2 * (max (∑ j, p j * p j) (D * D) * (Real.sqrt (max (∑ j, p j * p j) (D * D)))⁻¹
          * (Real.sqrt (max (∑ j, p j * p j) (D * D)))⁻¹) := by ring
    rw [this, hone]; norm_num
  unfold kernelGate refGate
  rw [hsum, hmax, hrs, hsq, hden]
  -- both sides are now real expressions coerced
  simp only [Ideal.div_coe hr0, ← EReal.coe_mul, ← EReal.coe_sub]
  rw [hnewton, coe_sum, coe_sum, ← EReal.coe_mul, ← EReal.coe_mul]
  congr 1
  rw [mul_one, Finset.sum_mul, Finset.sum_mul]
  refine Finset.sum_congr rfl fun j _ => ?_
  rw [one_div]; ring

/-! ## The two ingredients are reals when the inputs are -/

/-- A token's projection at one feature — a finite sum of products plus a bias — of real entries is a real. -/
theorem proj_coe {κ : Type} [Fintype κ] (x w : κ → ℝ) (b : ℝ) :
    (∑ k, ((x k : ℝ) : EReal) * ((w k : ℝ) : EReal)) + ((b : ℝ) : EReal) = (((∑ k, x k * w k) + b : ℝ) : EReal) := by
  simp only [← EReal.coe_mul]
  rw [coe_sum, ← EReal.coe_add]

/-- An entry of a real column over the column's clamped Euclidean norm, the clamp positive, is a real. -/
theorem unitCol_coe (s : ι → ℝ) (D : ℝ) (hD : 0 < D) (j : ι) :
    Ideal.div ((s j : ℝ) : EReal)
        (max (Ideal.sqrt (∑ j', ((s j' : ℝ) : EReal) * ((s j' : ℝ) : EReal))) ((D : ℝ) : EReal))
      = ((s j * (1 / max (Real.sqrt (∑ j', s j' * s j')) D) : ℝ) : EReal) := by
  have hs0 : 0 ≤ ∑ j', s j' * s j' := Finset.sum_nonneg fun j' _ => mul_self_nonneg (s j')
  have hsum : (∑ j', ((s j' : ℝ) : EReal) * ((s j' : ℝ) : EReal)) = ((∑ j', s j' * s j' : ℝ) : EReal) := by
    simp only [← EReal.coe_mul]; exact coe_sum _ _
  have hne : max (Real.sqrt (∑ j', s j' * s j')) D ≠ 0 := (lt_of_lt_of_le hD (le_max_right _ _)).ne'
  rw [hsum, Ideal.sqrt_coe, if_neg (not_lt.2 hs0), ← coe_max, Ideal.div_coe hne, ← EReal.coe_mul]

/-! ## The float literals of the two programs, as the reals their patterns denote -/

/-- The Newton step's `0.5`. -/
theorem ofBits_half : Ideal.ofBits .f32 0x3F000000#32 = ((1 / 2 : ℝ) : EReal) := by
  simp [Ideal.ofBits, Ideal.ieee, -EReal.coe_mul]; norm_num

/-- The Newton step's `1.5`. -/
theorem ofBits_three_halves : Ideal.ofBits .f32 0x3FC00000#32 = ((3 / 2 : ℝ) : EReal) := by
  simp [Ideal.ofBits, Ideal.ieee, -EReal.coe_mul]; norm_num

/-- The clamp of a norm that both programs print as `9.99999996E-13`: exactly `2305843 / 2^61`. -/
def clampR : ℝ := 2305843 / 2305843009213693952

theorem clampR_pos : 0 < clampR := by unfold clampR; norm_num

theorem ofBits_clamp : Ideal.ofBits .f32 0x2B8CBCCC#32 = ((clampR : ℝ) : EReal) := by
  unfold clampR
  simp [Ideal.ofBits, Ideal.ieee, -EReal.coe_mul]; norm_num

/-- The value the kernel's clamp of the SQUARED norm is named with is the square of that clamp. -/
theorem clampSq : ((5316911940649 / 5316911983139663491615228241121378304 : ℝ) : EReal) = ((clampR * clampR : ℝ) : EReal) := by
  unfold clampR
  congr 1
  norm_num

end Cert.Gate

end
-- ==== Proof.LibKeepdims.lean ====
/-
  Column forms of the layout operations a `keepdims` reduction leaves behind, read at an index: a vector turned into a
  one-column matrix, and a one-column matrix broadcast along its rows. General in the extents and in the element type.
-/
import Idealize.ShloMosaic.Lib.ValueIdx
import Idealize.ShloMosaic.Lib.Pipeline.Value

namespace Cert.Lib.Keepdims

open Idealize.ShloMosaic Idealize.ShloMosaic.ValueIdx

variable {α : Type}

/-- An `[a]` array cast to `[a, 1]` reads, at `(i, u)`, the operand at `i`, whatever the unit coordinate `u`:
    both have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Keepdims
-- ==== Proof.KernelRow.lean ====
/-
  The kernel body's arithmetic, read at one entry of its output block.

  The body computes, for the 4096 tokens of its block at once: the projection `P = X · Wᵀ + b` (a matrix product
  into a zero accumulator, plus a broadcast row), each token's squared norm `‖P_q‖²` (a lane sum), the clamp and the
  Newton-refined reciprocal root of it, the similarity matrix with each expert column divided by its clamped norm and
  scaled by `exp t`, the product of `P` with that matrix, scaled row by row, and finally the transpose. Read at the
  entry (expert `e`, token `q`) of the transposed block this is the kernel's arrangement of the cosine gate
  (`Cert.Gate.kernelGate`) of token `q`'s projection against expert `e`'s normalised column.
-/
import proofs.«111263_g85023172591907_cont_9to1c4b_591_32_alg».proof.Proof.Gen.KernelIdeal.Skeleton
import proofs.«111263_g85023172591907_cont_9to1c4b_591_32_alg».proof.Proof.Gate
import proofs.«111263_g85023172591907_cont_9to1c4b_591_32_alg».proof.Proof.LibKeepdims
import Idealize.ShloMosaic.PureOps.IdealRules
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Row

open Cert.KernelIdeal Cert.KernelIdeal.Gen Idealize.ShloMosaic Idealize.ShloMosaic.ValueIdx

/-! ## The two matrix products at an index

Each contracts one axis, so its contraction index is one coordinate `k`; at output entry `(p, c)` the left operand is
read at `(p, k)` and the right at `(k, c)`. -/

theorem lhsA_0 (i : S4096x256.Idx) (q : dot_S4096x768_S768x256_S4096x256_1_0_0_1_n_n.contr.Idx) :
    (dot_S4096x768_S768x256_S4096x256_1_0_0_1_n_n.lhsIdx i q 0).val = (i 0).val := by
  unfold DotDims.lhsIdx
  rw [dif_neg (show ¬(0 : Fin S4096x768.rank) ∈ dot_S4096x768_S768x256_S4096x256_1_0_0_1_n_n.lhsBatch by decide), dif_pos (show (0 : Fin S4096x768.rank) ∈ dot_S4096x768_S768x256_S4096x256_1_0_0_1_n_n.lhsNonContracting by decide)]
  rfl
theorem lhsA_1 (i : S4096x256.Idx) (q : dot_S4096x768_S768x256_S4096x256_1_0_0_1_n_n.contr.Idx) :
    (dot_S4096x768_S768x256_S4096x256_1_0_0_1_n_n.lhsIdx i q 1).val = (q ⟨0, by decide⟩).val :=
  dot_S4096x768_S768x256_S4096x256_1_0_0_1_n_n.lhsIdx_val_of_single rfl i q
theorem rhsA_0 (i : S4096x256.Idx) (q : dot_S4096x768_S768x256_S4096x256_1_0_0_1_n_n.contr.Idx) :
    (dot_S4096x768_S768x256_S4096x256_1_0_0_1_n_n.rhsIdx i q 0).val = (q ⟨0, by decide⟩).val :=
  dot_S4096x768_S768x256_S4096x256_1_0_0_1_n_n.rhsIdx_val_of_single rfl i q
theorem rhsA_1 (i : S4096x256.Idx) (q : dot_S4096x768_S768x256_S4096x256_1_0_0_1_n_n.contr.Idx) :
    (dot_S4096x768_S768x256_S4096x256_1_0_0_1_n_n.rhsIdx i q 1).val = (i 1).val := by
  unfold DotDims.rhsIdx
  rw [dif_neg (show ¬(1 : Fin S768x256.rank) ∈ dot_S4096x768_S768x256_S4096x256_1_0_0_1_n_n.rhsBatch by decide), dif_pos (show (1 : Fin S768x256.rank) ∈ dot_S4096x768_S768x256_S4096x256_1_0_0_1_n_n.rhsNonContracting by decide)]
  rfl

/-- The tokens' block times the transposed weight, into zero: entry `(p, c)` is `∑ k, l (p, k) · r (k, c)`. -/
theorem matmulA_apply (l : FVec Ideal S4096x768 .f32) (r : FVec Ideal S768x256 .f32) (p : Fin 4096) (c : Fin 256) :
    matmul dot_S4096x768_S768x256_S4096x256_1_0_0_1_n_n none l r (constant S4096x256 .f32 0x00000000#32) (ix2 p c)
      = ∑ k : Fin 768, l (ix2 p k) * r (ix2 k c) := by
  simp only [matmul]
  rw [Ideal.matmul_constant_zero_apply, ← Equiv.sum_comp (contrEquiv1 dot_S4096x768_S768x256_S4096x256_1_0_0_1_n_n 768 rfl rfl).symm]
  refine Finset.sum_congr rfl fun k _ => ?_
  have hk := contrEquiv1_symm_val dot_S4096x768_S768x256_S4096x256_1_0_0_1_n_n 768 rfl rfl k
  have el : dot_S4096x768_S768x256_S4096x256_1_0_0_1_n_n.lhsIdx (ix2 p c) ((contrEquiv1 dot_S4096x768_S768x256_S4096x256_1_0_0_1_n_n 768 rfl rfl).symm k) = ix2 p k := funext fun a => Fin.ext (by
    match a with
    | ⟨0, _⟩ => exact lhsA_0 _ _
    | ⟨1, _⟩ => exact (lhsA_1 _ _).trans hk)
  have er : dot_S4096x768_S768x256_S4096x256_1_0_0_1_n_n.rhsIdx (ix2 p c) ((contrEquiv1 dot_S4096x768_S768x256_S4096x256_1_0_0_1_n_n 768 rfl rfl).symm k) = ix2 k c := funext fun a => Fin.ext (by
    match a with
    | ⟨0, _⟩ => exact (rhsA_0 _ _).trans hk
    | ⟨1, _⟩ => exact rhsA_1 _ _)
  rw [el, er]

theorem lhsB_0 (i : S4096x64.Idx) (q : dot_S4096x256_S256x64_S4096x64_1_0_0_1_n_n.contr.Idx) :
    (dot_S4096x256_S256x64_S4096x64_1_0_0_1_n_n.lhsIdx i q 0).val = (i 0).val := by
  unfold DotDims.lhsIdx
  rw [dif_neg (show ¬(0 : Fin S4096x256.rank) ∈ dot_S4096x256_S256x64_S4096x64_1_0_0_1_n_n.lhsBatch by decide), dif_pos (show (0 : Fin S4096x256.rank) ∈ dot_S4096x256_S256x64_S4096x64_1_0_0_1_n_n.lhsNonContracting by decide)]
  rfl
theorem lhsB_1 (i : S4096x64.Idx) (q : dot_S4096x256_S256x64_S4096x64_1_0_0_1_n_n.contr.Idx) :
    (dot_S4096x256_S256x64_S4096x64_1_0_0_1_n_n.lhsIdx i q 1).val = (q ⟨0, by decide⟩).val :=
  dot_S4096x256_S256x64_S4096x64_1_0_0_1_n_n.lhsIdx_val_of_single rfl i q
theorem rhsB_0 (i : S4096x64.Idx) (q : dot_S4096x256_S256x64_S4096x64_1_0_0_1_n_n.contr.Idx) :
    (dot_S4096x256_S256x64_S4096x64_1_0_0_1_n_n.rhsIdx i q 0).val = (q ⟨0, by decide⟩).val :=
  dot_S4096x256_S256x64_S4096x64_1_0_0_1_n_n.rhsIdx_val_of_single rfl i q
theorem rhsB_1 (i : S4096x64.Idx) (q : dot_S4096x256_S256x64_S4096x64_1_0_0_1_n_n.contr.Idx) :
    (dot_S4096x256_S256x64_S4096x64_1_0_0_1_n_n.rhsIdx i q 1).val = (i 1).val := by
  unfold DotDims.rhsIdx
  rw [dif_neg (show ¬(1 : Fin S256x64.rank) ∈ dot_S4096x256_S256x64_S4096x64_1_0_0_1_n_n.rhsBatch by decide), dif_pos (show (1 : Fin S256x64.rank) ∈ dot_S4096x256_S256x64_S4096x64_1_0_0_1_n_n.rhsNonContracting by decide)]
  rfl

/-- The projections times the normalised similarity matrix, into zero: entry `(p, c)` is `∑ k, l (p, k) · r (k, c)`. -/
theorem matmulB_apply (l : FVec Ideal S4096x256 .f32) (r : FVec Ideal S256x64 .f32) (p : Fin 4096) (c : Fin 64) :
    matmul dot_S4096x256_S256x64_S4096x64_1_0_0_1_n_n none l r (constant S4096x64 .f32 0x00000000#32) (ix2 p c)
      = ∑ k : Fin 256, l (ix2 p k) * r (ix2 k c) := by
  simp only [matmul]
  rw [Ideal.matmul_constant_zero_apply, ← Equiv.sum_comp (contrEquiv1 dot_S4096x256_S256x64_S4096x64_1_0_0_1_n_n 256 rfl rfl).symm]
  refine Finset.sum_congr rfl fun k _ => ?_
  have hk := contrEquiv1_symm_val dot_S4096x256_S256x64_S4096x64_1_0_0_1_n_n 256 rfl rfl k
  have el : dot_S4096x256_S256x64_S4096x64_1_0_0_1_n_n.lhsIdx (ix2 p c) ((contrEquiv1 dot_S4096x256_S256x64_S4096x64_1_0_0_1_n_n 256 rfl rfl).symm k) = ix2 p k := funext fun a => Fin.ext (by
    match a with
    | ⟨0, _⟩ => exact lhsB_0 _ _
    | ⟨1, _⟩ => exact (lhsB_1 _ _).trans hk)
  have er : dot_S4096x256_S256x64_S4096x64_1_0_0_1_n_n.rhsIdx (ix2 p c) ((contrEquiv1 dot_S4096x256_S256x64_S4096x64_1_0_0_1_n_n 256 rfl rfl).symm k) = ix2 k c := funext fun a => Fin.ext (by
    match a with
    | ⟨0, _⟩ => exact (rhsB_0 _ _).trans hk
    | ⟨1, _⟩ => exact rhsB_1 _ _)
  rw [el, er]

/-! ## The two lane sums and the scalar read at an index -/

/-- A token's lane sum over the 256 projection features. -/
theorem rowSum_apply (v : FVec Ideal S4096x256 .f32) (hφ : FKind.Formats .f32)
    (hacc : (0x00000000#32 : BitVec 32) = FKind.add.neutral .f32 hφ) (q : Fin 4096) :
    multiReduction .add [1] S4096 v 0x00000000#32 reduces_S4096x256_S4096 hφ hacc (ix1 q) = ∑ j : Fin 256, v (ix2 q j) :=
  (Ideal.multiReduction_add_single v 0x00000000#32 reduces_S4096x256_S4096 hφ hacc (ix1 q)).trans
    (Finset.sum_congr rfl fun j _ => congrArg v (funext fun a => Fin.ext (by
      match a with
      | ⟨0, _⟩ => rfl
      | ⟨1, _⟩ => rfl)))

/-- An expert column's sum over the 256 rows of the similarity matrix. -/
theorem colSum_apply (v : FVec Ideal S256x64 .f32) (hφ : FKind.Formats .f32)
    (hacc : (0x00000000#32 : BitVec 32) = FKind.add.neutral .f32 hφ) (e : Fin 64) :
    multiReduction .add [0] S64 v 0x00000000#32 reduces_S256x64_S64 hφ hacc (ix1 e) = ∑ j : Fin 256, v (ix2 j e) :=
  (Ideal.multiReduction_add_single v 0x00000000#32 reduces_S256x64_S64 hφ hacc (ix1 e)).trans
    (Finset.sum_congr rfl fun j _ => congrArg v (funext fun a => Fin.ext (by
      match a with
      | ⟨0, _⟩ => rfl
      | ⟨1, _⟩ => rfl)))

/-- The temperature is the one entry of its `[1, 1]` block. -/
theorem temp_apply (x : FVec Ideal S1x1 .f32) :
    extractAt ![0, 0] x inpos_S1x1_p0_0 = x (ix2 (0 : Fin 1) (0 : Fin 1)) :=
  congrArg x (funext fun a => Fin.ext (by
    match a with
    | ⟨0, _⟩ => rfl
    | ⟨1, _⟩ => rfl))

/-! ## The body in stages -/

/-- The block's projection `X · Wᵀ + b`. -/
def projBlk (x0 : FVec Ideal S4096x768 .f32) (x1 : FVec Ideal S768x256 .f32) (x4 : FVec Ideal S1x256 .f32) :
    FVec Ideal S4096x256 .f32 :=
  addf (matmul dot_S4096x768_S768x256_S4096x256_1_0_0_1_n_n none x0 (shapeCast S768x256 x1 shapeCasts_S768x256_S768x256) (constant S4096x256 .f32 0x00000000#32))
    (broadcastTo S4096x256 (shapeCast S1x256 x4 shapeCasts_S1x256_S1x256) broadcasts_S1x256_S4096x256)

/-- Token `q`'s projection at feature `j`: the row of `X` against the column of `Wᵀ`, plus the bias. -/
theorem projBlk_apply (x0 : FVec Ideal S4096x768 .f32) (x1 : FVec Ideal S768x256 .f32) (x4 : FVec Ideal S1x256 .f32)
    (q : Fin 4096) (j : Fin 256) :
    projBlk x0 x1 x4 (ix2 q j) = (∑ k : Fin 768, x0 (ix2 q k) * x1 (ix2 k j)) + x4 (ix2 (0 : Fin 1) j) := by
  unfold projBlk
  rw [addf_apply, matmulA_apply, shapeCast_self, shapeCast_self, broadcastTo_1b_ab_apply]

/-- Each token's squared norm, kept as a column. -/
def normSqBlk (P : FVec Ideal S4096x256 .f32) : FVec Ideal S4096x1 .f32 :=
  shapeCast S4096x1 (multiReduction .add [1] S4096 (mulf P P) 0x00000000#32 reduces_S4096x256_S4096 (.inl rfl) rfl)
    shapeCasts_S4096_S4096x1

theorem normSqBlk_apply (P : FVec Ideal S4096x256 .f32) (q : Fin 4096) :
    normSqBlk P (ix2 q (0 : Fin 1)) = ∑ j : Fin 256, P (ix2 q j) * P (ix2 q j) := by
  unfold normSqBlk
  rw [Cert.Lib.Keepdims.shapeCast_a_a1_apply]
  exact rowSum_apply (mulf P P) _ _ q

/-- The Newton-refined reciprocal root of the clamped squared norm, entry by entry. -/
def scaleBlk (n : FVec Ideal S4096x1 .f32) : FVec Ideal S4096x1 .f32 :=
  mulf (rsqrt (maximumf n (broadcast S4096x1 (Named.named κ "eps_sq" 0x179ABE15#32))))
    (subf (broadcast S4096x1 (Scalar.ofBits .f32 0x3FC00000#32))
      (mulf (mulf (mulf (broadcast S4096x1 (Scalar.ofBits .f32 0x3F000000#32))
          (maximumf n (broadcast S4096x1 (Named.named κ "eps_sq" 0x179ABE15#32))))
        (rsqrt (maximumf n (broadcast S4096x1 (Named.named κ "eps_sq" 0x179ABE15#32)))))
        (rsqrt (maximumf n (broadcast S4096x1 (Named.named κ "eps_sq" 0x179ABE15#32))))))

theorem scaleBlk_apply (n : FVec Ideal S4096x1 .f32) (i : S4096x1.Idx) :
    scaleBlk n i
      = Ideal.rsqrt (max (n i) (Named.named (F := Ideal) κ "eps_sq" (φ := .f32) 0x179ABE15#32)) *
        (Ideal.ofBits .f32 0x3FC00000#32
          - Ideal.ofBits .f32 0x3F000000#32 * max (n i) (Named.named (F := Ideal) κ "eps_sq" (φ := .f32) 0x179ABE15#32)
            * Ideal.rsqrt (max (n i) (Named.named (F := Ideal) κ "eps_sq" (φ := .f32) 0x179ABE15#32))
            * Ideal.rsqrt (max (n i) (Named.named (F := Ideal) κ "eps_sq" (φ := .f32) 0x179ABE15#32))) := rfl

/-- The similarity matrix, each expert column over its clamped norm, times the temperature factor. -/
def simBlk (x21 : FVec Ideal S256x64 .f32) (x30 : FVec Ideal S1x1 .f32) : FVec Ideal S256x64 .f32 :=
  mulf (divf x21 (broadcastTo S256x64 (maximumf (sqrt (shapeCast S1x64
      (multiReduction .add [0] S64 (mulf x21 x21) 0x00000000#32 reduces_S256x64_S64 (.inl rfl) rfl) shapeCasts_S64_S1x64))
      (broadcast S1x64 (Scalar.ofBits .f32 0x2B8CBCCC#32))) broadcasts_S1x64_S256x64))
    (broadcast S256x64 (Scalar.exp (extractAt ![0, 0] x30 inpos_S1x1_p0_0)))

theorem simBlk_apply (x21 : FVec Ideal S256x64 .f32) (x30 : FVec Ideal S1x1 .f32) (j : Fin 256) (e : Fin 64) :
    simBlk x21 x30 (ix2 j e)
      = Ideal.div (x21 (ix2 j e))
          (max (Ideal.sqrt (∑ j' : Fin 256, x21 (ix2 j' e) * x21 (ix2 j' e))) (Ideal.ofBits .f32 0x2B8CBCCC#32))
        * Ideal.exp (x30 (ix2 (0 : Fin 1) (0 : Fin 1))) := by
  unfold simBlk
  rw [mulf_apply, divf_apply, broadcastTo_1b_ab_apply, maximumf_apply, broadcast_apply, broadcast_apply, temp_apply]
  show Ideal.div _ (max (Ideal.sqrt (shapeCast S1x64 _ shapeCasts_S64_S1x64 (ix2 (0 : Fin 1) e))) _) * _ = _
  rw [shapeCast_a_1a_apply]
  exact congrArg (fun s : EReal => Ideal.div (x21 (ix2 j e)) (max (Ideal.sqrt s) (Ideal.ofBits .f32 0x2B8CBCCC#32))
    * Ideal.exp (x30 (ix2 (0 : Fin 1) (0 : Fin 1)))) (colSum_apply (mulf x21 x21) _ _ e)

/-- The payload is those stages composed, then transposed. -/
theorem k0_pay1_eq (x0 : FVec Ideal S4096x768 .f32) (x1 : FVec Ideal S768x256 .f32) (x4 : FVec Ideal S1x256 .f32)
    (x21 : FVec Ideal S256x64 .f32) (x30 : FVec Ideal S1x1 .f32) :
    k0_pay1 (F := Ideal) x0 x1 x4 x21 x30
      = transpose S64x4096 [1, 0]
          (mulf (matmul dot_S4096x256_S256x64_S4096x64_1_0_0_1_n_n none (projBlk x0 x1 x4) (simBlk x21 x30) (constant S4096x64 .f32 0x00000000#32))
            (broadcastTo S4096x64 (scaleBlk (normSqBlk (projBlk x0 x1 x4))) broadcasts_S4096x1_S4096x64))
          transposes_S4096x64_p1_0_S64x4096 := rfl

/-! ## The payload at an entry -/

/-- The named clamp of the squared norm denotes, at the exact reals, the square of the reference's clamp. -/
theorem epsSq_eq : Named.named (F := Ideal) κ "eps_sq" (φ := .f32) 0x179ABE15#32
    = ((5316911940649 / 5316911983139663491615228241121378304 : ℝ) : EReal) :=
  IdealRules.named_const.ideal_named_scalar _ _ _ _ rfl

/-- ENTRY `(e, q)` OF THE BODY'S RESULT is the kernel's arrangement of the gate of token `q`'s projection against
    expert `e`'s normalised column. -/
theorem k0_pay1_apply (x0 : FVec Ideal S4096x768 .f32) (x1 : FVec Ideal S768x256 .f32) (x4 : FVec Ideal S1x256 .f32)
    (x21 : FVec Ideal S256x64 .f32) (x30 : FVec Ideal S1x1 .f32) (e : Fin 64) (q : Fin 4096) :
    k0_pay1 (F := Ideal) x0 x1 x4 x21 x30 (ix2 e q)
      = Cert.Gate.kernelGate (Ideal.ofBits .f32 0x3F000000#32) (Ideal.ofBits .f32 0x3FC00000#32)
          (Named.named (F := Ideal) κ "eps_sq" (φ := .f32) 0x179ABE15#32)
          (fun j : Fin 256 => (∑ k : Fin 768, x0 (ix2 q k) * x1 (ix2 k j)) + x4 (ix2 (0 : Fin 1) j))
          (fun j : Fin 256 => Ideal.div (x21 (ix2 j e))
            (max (Ideal.sqrt (∑ j' : Fin 256, x21 (ix2 j' e) * x21 (ix2 j' e))) (Ideal.ofBits .f32 0x2B8CBCCC#32)))
          (Ideal.exp (x30 (ix2 (0 : Fin 1) (0 : Fin 1)))) := by
  rw [k0_pay1_eq, transpose_ix2_apply, mulf_apply, matmulB_apply, Cert.Lib.Keepdims.broadcastTo_a1_ab_apply,
    scaleBlk_apply, normSqBlk_apply]
  simp only [projBlk_apply, simBlk_apply]
  rfl

end Cert.KernelIdeal.Row

end
-- ==== Proof.KernelValue.lean ====
/-
  The idealized kernel's result array after its run, as one function of the argument arrays.

  The one pipeline of the program walks 8 blocks of 4096 tokens. At block `t` the body reads rows
  `4096·t … 4096·t + 4095` of `x` and the whole of the other four operands, and writes back columns
  `4096·t … 4096·t + 4095` of the packed `[64, 32768]` result: entry `(e, r)` is the gate of token `r` against expert
  `e`. The 8 column blocks tile the packed array, so after the run it is that function everywhere; the host line after
  the region transposes it into the `[32768, 64]` result. The operands the region finds are what the host lines before
  it wrote: `W` transposed, `b` as a row, the temperature as a `[1, 1]` array.
-/
import proofs.«111263_g85023172591907_cont_9to1c4b_591_32_alg».proof.Proof.Gen.KernelIdeal.Frame
import proofs.«111263_g85023172591907_cont_9to1c4b_591_32_alg».proof.Proof.KernelRow
import Idealize.ShloMosaic.Lib.StableHlo.Run

set_option maxRecDepth 16384

noncomputable section

namespace Cert.KernelIdeal.GateValue

open Cert.KernelIdeal Cert.KernelIdeal.Gen Cert.KernelIdeal.Row Idealize.ShloMosaic Idealize.ShloMosaic.TcCoe
open Idealize.ShloMosaic.ValueIdx Idealize.SL.Sem
open Idealize.ShloMosaic.Pipeline (Dat Cfg Window)

variable (m : (ℓ : Loc nD τ sig) → Buf (Elt Ideal) ℓ) (ρ : Dev nD → PrngReg)

/-! ## What the region finds -/

/-- The weight as the region finds it: `W` transposed by the first host line. -/
theorem V_main_v0 (c : Dev nD) : (V m c main_v0 : S768x256.Idx → EReal)
    = transpose S768x256 [1, 0] (m ((c : Thread nD τ).loc main_arg1)) transposes_S256x768_S768x256_1_0 := by
  show StableHlo.after hostOps0 (fun b => m (c, b)) (Proc.devRef .tc main_v0) = _
  after_results

/-- The bias as the region finds it: `b` recast as one row. -/
theorem V_main_v1 (c : Dev nD) : (V m c main_v1 : S1x256.Idx → EReal)
    = shapeCast S1x256 (m ((c : Thread nD τ).loc main_arg2)) shapeCasts_S256_S1x256 := by
  show StableHlo.after hostOps0 (fun b => m (c, b)) (Proc.devRef .tc main_v1) = _
  after_results
  rfl

/-- The temperature as the region finds it: recast as a `[1, 1]` array. -/
theorem V_main_v2 (c : Dev nD) : (V m c main_v2 : S1x1.Idx → EReal)
    = shapeCast S1x1 (m ((c : Thread nD τ).loc main_arg4)) shapeCasts_S1_S1x1 := by
  show StableHlo.after hostOps0 (fun b => m (c, b)) (Proc.devRef .tc main_v2) = _
  after_results
  rfl

/-! ## The gate from the arrays the region finds, and the packed result -/

/-- The gate of token `r` against expert `e`, in the kernel's arrangement, from the five arrays the region finds. -/
def gateAt (X : FVec Ideal S32768x768 .f32) (Wt : FVec Ideal S768x256 .f32) (B : FVec Ideal S1x256 .f32)
    (S : FVec Ideal S256x64 .f32) (T : FVec Ideal S1x1 .f32) (r : Fin 32768) (e : Fin 64) : EReal :=
  Cert.Gate.kernelGate (Ideal.ofBits .f32 0x3F000000#32) (Ideal.ofBits .f32 0x3FC00000#32)
    (Named.named (F := Ideal) κ "eps_sq" (φ := .f32) 0x179ABE15#32)
    (fun j : Fin 256 => (∑ k : Fin 768, X (ix2 r k) * Wt (ix2 k j)) + B (ix2 (0 : Fin 1) j))
    (fun j : Fin 256 => Ideal.div (S (ix2 j e))
      (max (Ideal.sqrt (∑ j' : Fin 256, S (ix2 j' e) * S (ix2 j' e))) (Ideal.ofBits .f32 0x2B8CBCCC#32)))
    (Ideal.exp (T (ix2 (0 : Fin 1) (0 : Fin 1))))

/-- The packed result: expert along the rows, token along the columns. -/
def packed (X : FVec Ideal S32768x768 .f32) (Wt : FVec Ideal S768x256 .f32) (B : FVec Ideal S1x256 .f32)
    (S : FVec Ideal S256x64 .f32) (T : FVec Ideal S1x1 .f32) : FVec Ideal S64x32768 .f32 :=
  fun i => gateAt X Wt B S T ⟨(i 1).val, idx2_lt1 i⟩ ⟨(i 0).val, idx2_lt0 i⟩

/-! ## From the blocks to the array -/

theorem hz : (![0, 0] : Fin 2 → Nat) = fun _ => 0 := funext fun a => by fin_cases a <;> rfl

/-- The printed index maps, decided over the 8 points: the token block of `x` moves with the column block of the
    result; every other operand is one block; the result's row block is fixed and its column block is the point. -/
theorem idx_facts : ∀ t : Fin cfg0.N,
    win0_0.index t (0 : Fin 2) = win0_5.index t (1 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = t.val :=
  (by decide +kernel : ∀ t : Fin grid0.N, _)

/-- The body's result at entry `(e, q)` of its block, when row `q` of its token block is row `r` of `x` and its other four
    operands are the whole arrays: the gate of token `r` against expert `e`. -/
theorem gate_point (X : FVec Ideal S32768x768 .f32) (Wt : FVec Ideal S768x256 .f32) (B : FVec Ideal S1x256 .f32)
    (S : FVec Ideal S256x64 .f32) (T : FVec Ideal S1x1 .f32) (x0 : FVec Ideal S4096x768 .f32) (e : Fin 64) (q : Fin 4096)
    (r : Fin 32768) (h0 : ∀ k : Fin 768, x0 (ix2 q k) = X (ix2 r k)) :
    k0_pay1 (F := Ideal) x0 Wt B S T (ix2 e q) = gateAt X Wt B S T r e := by
  rw [k0_pay1_apply]
  unfold gateAt
  simp only [h0]

/-- WHAT POINT `t` WRITES BACK is block `t` of the packed result of the arrays the region finds. -/
theorem flushed_eq (c : Dev nD) (t : Fin cfg0.N) :
    (dats m 0 c).flushed 5 t = ((cfg0.win 5).blk t).view.read (Elt Ideal)
      (packed (V m c main_arg0) (V m c main_v0) (V m c main_v1) (V m c main_arg3) (V m c main_v2)) := by
  show (cfg0.win 5).cut (grid0.coords t) ((dats m 0 c).after 5 t) = _
  rw [after0_5]
  unfold out0_5
  rw [View.canon_unit_zero hz]
  simp only [View.ld_unit_zero (S := S4096x768) hz, View.ld_unit_zero (S := S768x256) hz, View.ld_unit_zero (S := S1x256) hz,
    View.ld_unit_zero (S := S256x64) hz, View.ld_unit_zero (S := S1x1) hz]
  obtain ⟨e0, e1, e2, e3, e4, e5, e6, e7, e8, e9, e10, e11⟩ := idx_facts t
  refine funext fun (y : S64x4096.Idx) => ?_
  obtain ⟨e, q, rfl⟩ : ∃ (e : Fin 64) (q : Fin 4096), y = ix2 e q := ⟨y 0, y 1, eq_ix2 y⟩
  show k0_pay1 (F := Ideal) (iblk m c 0 t) (iblk m c 1 t) (iblk m c 2 t) (iblk m c 3 t) (iblk m c 4 t) (ix2 e q)
      = gateAt (V m c main_arg0) (V m c main_v0) (V m c main_v1) (V m c main_arg3) (V m c main_v2)
          ⟨((((cfg0.win 5).blk t).view.emb (ix2 e q)) 1).val, idx2_lt1 _⟩
          ⟨((((cfg0.win 5).blk t).view.emb (ix2 e q)) 0).val, idx2_lt0 _⟩
  -- the four operands staged whole are the arrays themselves
  have h1 : (iblk m c 1 t : S768x256.Idx → EReal) = V m c main_v0 := by
    funext z
    show V m c main_v0 (((cfg0.win 1).blk t).view.emb z) = V m c main_v0 z
    refine congrArg _ (funext fun a => Fin.ext ?_)
    match a with
    | ⟨0, _⟩ => show win0_1.index t (0 : Fin 2) * 768 + 1 * (z 0).val = (z 0).val; omega
    | ⟨1, _⟩ => show win0_1.index t (1 : Fin 2) * 256 + 1 * (z 1).val = (z 1).val; omega
  have h2 : (iblk m c 2 t : S1x256.Idx → EReal) = V m c main_v1 := by
    funext z
    show V m c main_v1 (((cfg0.win 2).blk t).view.emb z) = V m c main_v1 z
    refine congrArg _ (funext fun a => Fin.ext ?_)
    match a with
    | ⟨0, _⟩ => show win0_2.index t (0 : Fin 2) * 1 + 1 * (z 0).val = (z 0).val; omega
    | ⟨1, _⟩ => show win0_2.index t (1 : Fin 2) * 256 + 1 * (z 1).val = (z 1).val; omega
  have h3 : (iblk m c 3 t : S256x64.Idx → EReal) = V m c main_arg3 := by
    funext z
    show V m c main_arg3 (((cfg0.win 3).blk t).view.emb z) = V m c main_arg3 z
    refine congrArg _ (funext fun a => Fin.ext ?_)
    match a with
    | ⟨0, _⟩ => show win0_3.index t (0 : Fin 2) * 256 + 1 * (z 0).val = (z 0).val; omega
    | ⟨1, _⟩ => show win0_3.index t (1 : Fin 2) * 64 + 1 * (z 1).val = (z 1).val; omega
  have h4 : (iblk m c 4 t : S1x1.Idx → EReal) = V m c main_v2 := by
    funext z
    show V m c main_v2 (((cfg0.win 4).blk t).view.emb z) = V m c main_v2 z
    refine congrArg _ (funext fun a => Fin.ext ?_)
    match a with
    | ⟨0, _⟩ => show win0_4.index t (0 : Fin 2) * 1 + 1 * (z 0).val = (z 0).val; omega
    | ⟨1, _⟩ => show win0_4.index t (1 : Fin 2) * 1 + 1 * (z 1).val = (z 1).val; omega
  -- the result block's row is the expert itself
  have hcol : (⟨((((cfg0.win 5).blk t).view.emb (ix2 e q)) 0).val, idx2_lt0 _⟩ : Fin 64) = e :=
    Fin.ext (by show win0_5.index t (0 : Fin 2) * 64 + 1 * e.val = e.val; omega)
  rw [h1, h2, h3, h4, hcol]
  -- and row `q` of the token block is the row of `x` the result block's column names
  refine gate_point _ _ _ _ _ (iblk m c 0 t) e q _ fun k => ?_
  show V m c main_arg0 (((cfg0.win 0).blk t).view.emb (ix2 q k)) = V m c main_arg0 (ix2 _ k)
  refine congrArg _ (funext fun a => Fin.ext ?_)
  match a with
  | ⟨0, _⟩ =>
    show win0_0.index t (0 : Fin 2) * 4096 + 1 * q.val = win0_5.index t (1 : Fin 2) * 4096 + 1 * q.val
    omega
  | ⟨1, _⟩ =>
    show win0_0.index t (1 : Fin 2) * 768 + 1 * k.val = k.val
    omega

/-- An index of the packed array is in point `t`'s block iff each coordinate is in the block's range on its axis. -/
theorem mem_blk (t : Fin cfg0.N) (i : S64x32768.Idx) :
    i ∈ ((cfg0.win 5).blk t).view.set ↔ ∀ a : Fin 2, win0_5.index t a * S64x4096.size a ≤ (i a).val
      ∧ (i a).val < win0_5.index t a * S64x4096.size a + S64x4096.size a := by
  show i ∈ ((View.whole main_v3).slice (win0_5.rect t)).set ↔ _
  rw [View.set_slice_whole, Rect.mem_set_unit]
  exact Iff.rfl

/-- The 8 column blocks tile the packed array: token `r` lies in block `r / 4096`. -/
theorem cover (i : S64x32768.Idx) :
    ∃ t : Fin cfg0.N, (cfg0.win 5).flush t = true ∧ i ∈ ((cfg0.win 5).blk t).view.set := by
  have hi0 : (i 0).val < 64 := (i 0).isLt
  have hi1 : (i 1).val < 32768 := (i 1).isLt
  have hN : grid0.N = 8 := N_0
  have ht : (i 1).val / 4096 < cfg0.N := by show _ < grid0.N; omega
  obtain ⟨-, -, -, -, -, -, -, -, -, -, e10, e11⟩ := idx_facts ⟨(i 1).val / 4096, ht⟩
  refine ⟨⟨(i 1).val / 4096, ht⟩, flush0_5 _, ?_⟩
  rw [mem_blk]
  intro a
  match a with
  | ⟨0, _⟩ =>
    show win0_5.index ⟨(i 1).val / 4096, ht⟩ (0 : Fin 2) * 64 ≤ (i 0).val
      ∧ (i 0).val < win0_5.index ⟨(i 1).val / 4096, ht⟩ (0 : Fin 2) * 64 + 64
    omega
  | ⟨1, _⟩ =>
    show win0_5.index ⟨(i 1).val / 4096, ht⟩ (1 : Fin 2) * 4096 ≤ (i 1).val
      ∧ (i 1).val < win0_5.index ⟨(i 1).val / 4096, ht⟩ (1 : Fin 2) * 4096 + 4096
    have e : win0_5.index ⟨(i 1).val / 4096, ht⟩ (1 : Fin 2) = (i 1).val / 4096 := e11
    omega

/-- THE PACKED ARRAY after the run is the packed result of the arrays the region finds. -/
theorem final (c : Dev nD) : (dats m 0 c).arrAt 5 cfg0.N
    = packed (V m c main_arg0) (V m c main_v0) (V m c main_v1) (V m c main_arg3) (V m c main_v2) :=
  (dats m 0 c).arrAt_eq_of_cover 5 _ (fun t _ => flushed_eq m c t) cover

/-! ## The host line after the region -/

/-- The program's result as a function of its five argument arrays: the packed array of `x`, `W` transposed, `b` as a row,
    the similarity matrix and the temperature as a `[1, 1]` array, transposed back to token-major. -/
def result (x : FVec Ideal S32768x768 .f32) (W : FVec Ideal S256x768 .f32) (b : FVec Ideal S256 .f32)
    (sim : FVec Ideal S256x64 .f32) (temp : FVec Ideal S1 .f32) : FVec Ideal S32768x64 .f32 :=
  transpose S32768x64 [1, 0]
    (packed x (transpose S768x256 [1, 0] W transposes_S256x768_S768x256_1_0) (shapeCast S1x256 b shapeCasts_S256_S1x256)
      sim (shapeCast S1x1 temp shapeCasts_S1_S1x1))
    transposes_S64x32768_S32768x64_1_0

/-- The host line after the region leaves that function of the arguments in the result buffer. -/
theorem tail_eq (c : Dev nD) :
    (Pipeline.afterTail₀ cfgs (dats m) 0 (V0 m) [hostOps1] c main_v4 : S32768x64.Idx → EReal)
      = result (m ((c : Thread nD τ).loc main_arg0)) (m ((c : Thread nD τ).loc main_arg1))
          (m ((c : Thread nD τ).loc main_arg2)) (m ((c : Thread nD τ).loc main_arg3)) (m ((c : Thread nD τ).loc main_arg4)) := by
  unfold Pipeline.afterTail₀
  show StableHlo.after hostOps1 _ (Proc.devRef .tc main_v4) = _
  after_results
  refine (congrArg (fun A => transpose S32768x64 [1, 0] A transposes_S64x32768_S32768x64_1_0)
    ((Pipeline.withArrays_arr spec0 winFacts0.arr_inj c _ _ 5).trans (final m c))).trans ?_
  rw [V_main_arg0 m c, V_main_v0 m c, V_main_v1 m c, V_main_arg3 m c, V_main_v2 m c]
  rfl

/-- ENTRY `(r, e)` OF THE RESULT: the kernel's arrangement of the gate of token `r`'s projection `x_r · Wᵀ + b` against
    expert `e`'s column of the similarity matrix over its clamped norm, at temperature factor `exp t`. -/
theorem result_apply (x : FVec Ideal S32768x768 .f32) (W : FVec Ideal S256x768 .f32) (b : FVec Ideal S256 .f32)
    (sim : FVec Ideal S256x64 .f32) (temp : FVec Ideal S1 .f32) (r : Fin 32768) (e : Fin 64) :
    result x W b sim temp (ix2 r e)
      = Cert.Gate.kernelGate (Ideal.ofBits .f32 0x3F000000#32) (Ideal.ofBits .f32 0x3FC00000#32)
          (Named.named (F := Ideal) κ "eps_sq" (φ := .f32) 0x179ABE15#32)
          (fun j : Fin 256 => (∑ k : Fin 768, x (ix2 r k) * W (ix2 j k)) + b (ix1 j))
          (fun j : Fin 256 => Ideal.div (sim (ix2 j e))
            (max (Ideal.sqrt (∑ j' : Fin 256, sim (ix2 j' e) * sim (ix2 j' e))) (Ideal.ofBits .f32 0x2B8CBCCC#32)))
          (Ideal.exp (temp (ix1 (0 : Fin 1)))) := by
  unfold result
  rw [transpose_ix2_apply]
  show gateAt x _ _ sim _ r e = _
  unfold gateAt
  have hWt : ∀ (k : Fin 768) (j : Fin 256),
      transpose S768x256 [1, 0] W transposes_S256x768_S768x256_1_0 (ix2 k j) = W (ix2 j k) :=
    fun k j => transpose_ix2_apply W _ k j
  simp only [hWt, shapeCast_a_1a_apply]

/-! ## The run, read -/

/-- Every weakly fair execution of the idealized kernel's program terminates with the result buffer at `result` of the
    argument arrays and the argument arrays unchanged. -/
theorem run : θ_run defs (onTc (τ := τ) (main (F := Ideal))) ⟨m, fun _ => 0, ρ⟩ (fun r => ∀ c : Dev nD,
      r.2.mem ((c.tc : Thread nD τ).loc main_v4)
        = result (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨((h c).2 main_v4 (Pipeline.mem_restRefs_of main_v4 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c)⟩)
    (run_main m ρ)

end Cert.KernelIdeal.GateValue

end
-- ==== Proof.RefRead.lean ====
/-
  The reference program's result, read at one entry.

  The reference computes the projection `P = x · Wᵀ + b` of every token, divides each token's row by its clamped
  Euclidean norm, divides each expert column of the similarity matrix by its clamped norm, contracts the two over the
  projection features and scales by `exp t`. Read at entry `(r, e)` — token `r`, expert `e` — through the generated
  one-operation-at-a-time lemmas, this is the reference's arrangement of the cosine gate (`Cert.Gate.refGate`) of token
  `r`'s projection against expert `e`'s normalised column. The two host sums start from the constant `0`.
-/
import proofs.«111263_g85023172591907_cont_9to1c4b_591_32_alg».proof.Proof.Gen.ReferenceIdeal.Run
import proofs.«111263_g85023172591907_cont_9to1c4b_591_32_alg».proof.Proof.Gen.ReferenceIdeal.Read
import proofs.«111263_g85023172591907_cont_9to1c4b_591_32_alg».proof.Proof.Gate

noncomputable section

namespace Cert.ReferenceIdeal.RefRead

open Cert.ReferenceIdeal Cert.ReferenceIdeal.Read Idealize.ShloMosaic Idealize.ShloMosaic.ValueIdx

variable (x0 : (⟨S32768x768, .f32⟩ : BufTy).Contents (Elt Ideal)) (x1 : (⟨S256x768, .f32⟩ : BufTy).Contents (Elt Ideal))
  (x2 : (⟨S256, .f32⟩ : BufTy).Contents (Elt Ideal)) (x3 : (⟨S256x64, .f32⟩ : BufTy).Contents (Elt Ideal))
  (x4 : (⟨S1, .f32⟩ : BufTy).Contents (Elt Ideal))

/-- Token `r`'s projection at feature `j`: its row of `x` against row `j` of `W`, plus the bias. -/
theorem proj_apply (r : Fin 32768) (j : Fin 256) :
    val_main_v4 (F := Ideal) x0 x1 x2 (ix2 r j) = (∑ k : Fin 768, x0 (ix2 r k) * x1 (ix2 j k)) + x2 (ix1 j) := by
  rw [val_main_v4_apply, val_main_v1_apply, val_main_v3_apply, val_main_v2_apply]
  simp only [val_main_v0_apply]
  have hl : ∀ k : Fin 768, lidx_main_v1 (ix2 r j) k = ix2 r k := fun k => funext fun a => Fin.ext (by
    match a with
    | ⟨0, _⟩ => rfl
    | ⟨1, _⟩ => rfl)
  have hr : ∀ k : Fin 768, idx_main_v0 (ridx_main_v1 (ix2 r j) k) = ix2 j k := fun k => funext fun a => Fin.ext (by
    match a with
    | ⟨0, _⟩ => rfl
    | ⟨1, _⟩ => rfl)
  have hb : idx_main_v2 (idx_main_v3 (ix2 r j)) = ix1 j := funext fun a => Fin.ext (by
    match a with
    | ⟨0, _⟩ => rfl)
  simp only [hl, hr, hb]
  rfl

/-- Token `r`'s clamped norm. -/
theorem rowNorm_apply (r : Fin 32768) (u : Fin 1) :
    val_main_v7 (F := Ideal) x0 x1 x2 (ix2 r u)
      = max (Ideal.sqrt (∑ j : Fin 256, val_main_v4 (F := Ideal) x0 x1 x2 (ix2 r j) * val_main_v4 (F := Ideal) x0 x1 x2 (ix2 r j)))
          (Ideal.ofBits .f32 0x2B8CBCCC#32) := by
  rw [val_main_v7_apply, val_main_v5_apply, val_main_call0_v2_apply, val_main_call0_v1_apply, val_main_v6_apply,
    val_main_cst_apply, val_main_call0_cst_apply]
  simp only [val_main_call0_v0_apply]
  have hi : ∀ k : Fin 256, idx_main_call0_v1 (idx_main_call0_v2 (ix2 r u)) k = ix2 r k := fun k => funext fun a => Fin.ext (by
    match a with
    | ⟨0, _⟩ => rfl
    | ⟨1, _⟩ => rfl)
  simp only [hi]
  show max (Ideal.sqrt (Ideal.ofBits .f32 0x00000000#32 + _)) _ = _
  rw [Ideal.ofBits_zero_f32, zero_add]
  rfl

/-- Expert `e`'s column of the similarity matrix over its clamped norm, at row `j`. -/
theorem unitCol_apply (j : Fin 256) (e : Fin 64) :
    val_main_v14 (F := Ideal) x3 (ix2 j e)
      = Ideal.div (x3 (ix2 j e))
          (max (Ideal.sqrt (∑ j' : Fin 256, x3 (ix2 j' e) * x3 (ix2 j' e))) (Ideal.ofBits .f32 0x2B8CBCCC#32)) := by
  rw [val_main_v14_apply, val_main_v13_apply, val_main_v12_apply, val_main_v10_apply, val_main_call1_v2_apply,
    val_main_call1_v1_apply, val_main_v11_apply, val_main_cst_0_apply, val_main_call1_cst_apply]
  simp only [val_main_call1_v0_apply]
  have hi : ∀ k : Fin 256, idx_main_call1_v1 (idx_main_call1_v2 (idx_main_v13 (ix2 j e))) k = ix2 k e := fun k =>
    funext fun a => Fin.ext (by
      match a with
      | ⟨0, _⟩ => rfl
      | ⟨1, _⟩ => rfl)
  simp only [hi]
  show Ideal.div _ (max (Ideal.sqrt (Ideal.ofBits .f32 0x00000000#32 + _)) _) = _
  rw [Ideal.ofBits_zero_f32, zero_add]
  rfl

/-- The temperature factor, the same at every entry. -/
theorem temp_apply (r : Fin 32768) (e : Fin 64) :
    val_main_v18 (F := Ideal) x4 (ix2 r e) = Ideal.exp (x4 (ix1 (0 : Fin 1))) := by
  rw [val_main_v18_apply, val_main_v17_apply, val_main_v16_apply]
  have hi : idx_main_v17 (idx_main_v18 (ix2 r e)) = ix1 (0 : Fin 1) := funext fun a => Fin.ext (by
    match a with
    | ⟨0, _⟩ => rfl)
  rw [hi]
  rfl

/-- ENTRY `(r, e)` OF THE REFERENCE'S RESULT is the reference's arrangement of the gate of token `r`'s projection against
    expert `e`'s normalised column. -/
theorem result_apply (r : Fin 32768) (e : Fin 64) :
    val_main_v19 (F := Ideal) x0 x1 x2 x3 x4 (ix2 r e)
      = Cert.Gate.refGate (Ideal.ofBits .f32 0x2B8CBCCC#32)
          (fun j : Fin 256 => (∑ k : Fin 768, x0 (ix2 r k) * x1 (ix2 j k)) + x2 (ix1 j))
          (fun j : Fin 256 => Ideal.div (x3 (ix2 j e))
            (max (Ideal.sqrt (∑ j' : Fin 256, x3 (ix2 j' e) * x3 (ix2 j' e))) (Ideal.ofBits .f32 0x2B8CBCCC#32)))
          (Ideal.exp (x4 (ix1 (0 : Fin 1)))) := by
  rw [val_main_v19_apply, val_main_v15_apply, temp_apply]
  unfold Cert.Gate.refGate
  refine congrArg (· * Ideal.exp (x4 (ix1 (0 : Fin 1)))) (Finset.sum_congr rfl fun j _ => ?_)
  have hl : lidx_main_v15 (ix2 r e) j = ix2 r j := funext fun a => Fin.ext (by
    match a with
    | ⟨0, _⟩ => rfl
    | ⟨1, _⟩ => rfl)
  have hr : ridx_main_v15 (ix2 r e) j = ix2 j e := funext fun a => Fin.ext (by
    match a with
    | ⟨0, _⟩ => rfl
    | ⟨1, _⟩ => rfl)
  have h8 : idx_main_v8 (ix2 r j) = ix2 r (0 : Fin 1) := funext fun a => Fin.ext (by
    match a with
    | ⟨0, _⟩ => rfl
    | ⟨1, _⟩ => rfl)
  rw [hl, hr, val_main_v9_apply, val_main_v8_apply, h8, rowNorm_apply, unitCol_apply]
  simp only [proj_apply]
  rfl

end Cert.ReferenceIdeal.RefRead

end
-- ==== Proof.Finite.lean ====
/-
  From the stated precondition to real numbers.

  The precondition says of each of the five float inputs that every entry's absolute value compares below `+∞`
  (five `all`-reductions conjoined). On the extended reals an entry with `|x| < ⊤` is neither `⊤` nor `⊥`: it is the
  coercion of a real number. The algebraic law that joins the two programs is a law of the reals (distributivity fails at
  the infinities), so this is where the precondition is spent.
-/
import proofs.«111263_g85023172591907_cont_9to1c4b_591_32_alg».proof.Pre_finite_inputs
import proofs.«111263_g85023172591907_cont_9to1c4b_591_32_alg».proof.Proof.Gen.Pre_finite_inputs
import Idealize.ShloMosaic.Lib.ReduceAll
import Idealize.ShloMosaic.Lib.ValueIdx
import Idealize.ShloMosaic.PureOps.Ideal.Laws

noncomputable section

namespace Cert.Pre_finite_inputs.Finite

open Cert.Pre_finite_inputs Cert.Pre_finite_inputs.Gen Idealize.ShloMosaic

instance : Subsingleton S_.Idx := ⟨fun a b => funext fun d => d.elim0⟩

/-- An extended real whose absolute value compares below the pattern of `+∞` is a real number. -/
theorem real_of_abs_lt (x : EReal)
    (h : FloatOps.cmpf (F := Ideal) (φ := .f32) .olt (FloatOps.hostAbsf x) (FloatOps.ofBits .f32 0x7F800000#32) = 1#1) :
    ∃ r : ℝ, x = (r : EReal) := by
  have htop : Ideal.ofBits .f32 0x7F800000#32 = ⊤ := by simp [Ideal.ofBits, Ideal.ieee]
  rw [Ideal.cmpf_def, Ideal.hostAbsf_def, Ideal.absf_def, Ideal.ofBits_def, htop] at h
  induction x using EReal.rec with
  | bot => simp [Ideal.cmp] at h
  | coe r => exact ⟨r, rfl⟩
  | top => simp [Ideal.cmp] at h

/-- Under the stated precondition every entry of every input is a real number. -/
theorem reals_of_pre (a0 : FVec Ideal S32768x768 .f32) (a1 : FVec Ideal S256x768 .f32) (a2 : FVec Ideal S256 .f32)
    (a3 : FVec Ideal S256x64 .f32) (a4 : FVec Ideal S1 .f32) (h : fn (F := Ideal) a0 a1 a2 a3 a4 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) := by
  have h' := congrFun h ValueIdx.ix0
  dsimp only [fn, fn_part1] at h'
  -- the five `all`-reductions, conjoined left to right
  obtain ⟨h0123, h4⟩ := IntOp.andi_eq_one.1 (show IntOp.andi _ _ = 1#1 from h')
  obtain ⟨h012, h3⟩ := IntOp.andi_eq_one.1 (show IntOp.andi _ _ = 1#1 from h0123)
  obtain ⟨h01, h2⟩ := IntOp.andi_eq_one.1 (show IntOp.andi _ _ = 1#1 from h012)
  obtain ⟨h0, h1⟩ := IntOp.andi_eq_one.1 (show IntOp.andi _ _ = 1#1 from h01)
  exact ⟨fun i => real_of_abs_lt _ (Host.reduce_andi_all _ _ _ _ _ h0 i),
    fun i => real_of_abs_lt _ (Host.reduce_andi_all _ _ _ _ _ h1 i),
    fun i => real_of_abs_lt _ (Host.reduce_andi_all _ _ _ _ _ h2 i),
    fun i => real_of_abs_lt _ (Host.reduce_andi_all _ _ _ _ _ h3 i),
    fun i => real_of_abs_lt _ (Host.reduce_andi_all _ _ _ _ _ h4 i)⟩

end Cert.Pre_finite_inputs.Finite

end
-- ==== Proof.Bridge.lean ====
/-
  The two programs' results are one array when every input entry is a real number.

  Entry `(r, e)` of the kernel's result is the kernel's arrangement of the cosine gate of token `r` against expert `e`,
  and the same entry of the reference's result is the reference's arrangement of it, over the same projection
  `x_r · Wᵀ + b`, the same normalised expert column and the same temperature factor. With real entries the projection,
  the normalised column and `exp t` are reals, the kernel's two Newton constants are `1/2` and `3/2`, the reference's
  clamp is the positive real `D = 2305843 / 2^61`, and the kernel's named clamp is `D · D`: the law of the gate applies.
-/
import proofs.«111263_g85023172591907_cont_9to1c4b_591_32_alg».proof.Proof.KernelValue
import proofs.«111263_g85023172591907_cont_9to1c4b_591_32_alg».proof.Proof.RefRead
import proofs.«111263_g85023172591907_cont_9to1c4b_591_32_alg».proof.Proof.Gate

noncomputable section

namespace Cert.Bridge

open Idealize.ShloMosaic Idealize.ShloMosaic.ValueIdx

theorem result_eq (x : FVec Ideal Cert.KernelIdeal.S32768x768 .f32) (W : FVec Ideal Cert.KernelIdeal.S256x768 .f32)
    (b : FVec Ideal Cert.KernelIdeal.S256 .f32) (sim : FVec Ideal Cert.KernelIdeal.S256x64 .f32)
    (temp : FVec Ideal Cert.KernelIdeal.S1 .f32)
    (hx : ∀ i, ∃ r : ℝ, x i = (r : EReal)) (hW : ∀ i, ∃ r : ℝ, W i = (r : EReal)) (hb : ∀ i, ∃ r : ℝ, b i = (r : EReal))
    (hs : ∀ i, ∃ r : ℝ, sim i = (r : EReal)) (ht : ∀ i, ∃ r : ℝ, temp i = (r : EReal)) :
    Cert.KernelIdeal.GateValue.result x W b sim temp
      = Cert.ReferenceIdeal.Read.val_main_v19 (F := Ideal) x W b sim temp := by
  funext i
  obtain ⟨r, e, rfl⟩ : ∃ (r : Fin 32768) (e : Fin 64), i = ix2 r e := ⟨i 0, i 1, eq_ix2 i⟩
  rw [Cert.KernelIdeal.GateValue.result_apply, Cert.ReferenceIdeal.RefRead.result_apply]
  -- the real entries
  choose xr hxr using hx
  choose wr hwr using hW
  choose br hbr using hb
  choose sr hsr using hs
  choose tr htr using ht
  simp only [hxr, hwr, hbr, hsr, htr]
  -- the constants
  rw [Cert.Gate.ofBits_half, Cert.Gate.ofBits_three_halves, Cert.KernelIdeal.Row.epsSq_eq, Cert.Gate.ofBits_clamp,
    Cert.Gate.clampSq, Ideal.exp_coe]
  -- the projection and the normalised column are reals
  have hp : (fun j : Fin 256 => (∑ k : Fin 768, ((xr (ix2 r k) : ℝ) : EReal) * ((wr (ix2 j k) : ℝ) : EReal))
        + ((br (ix1 j) : ℝ) : EReal))
      = fun j : Fin 256 => (((∑ k : Fin 768, xr (ix2 r k) * wr (ix2 j k)) + br (ix1 j) : ℝ) : EReal) :=
    funext fun j => Cert.Gate.proj_coe (fun k : Fin 768 => xr (ix2 r k)) (fun k : Fin 768 => wr (ix2 j k)) (br (ix1 j))
  have hu : (fun j : Fin 256 => Ideal.div ((sr (ix2 j e) : ℝ) : EReal)
        (max (Ideal.sqrt (∑ j' : Fin 256, ((sr (ix2 j' e) : ℝ) : EReal) * ((sr (ix2 j' e) : ℝ) : EReal)))
          ((Cert.Gate.clampR : ℝ) : EReal)))
      = fun j : Fin 256 => ((sr (ix2 j e)
          * (1 / max (Real.sqrt (∑ j' : Fin 256, sr (ix2 j' e) * sr (ix2 j' e))) Cert.Gate.clampR) : ℝ) : EReal) :=
    funext fun j => Cert.Gate.unitCol_coe (fun j' : Fin 256 => sr (ix2 j' e)) Cert.Gate.clampR Cert.Gate.clampR_pos j
  rw [hp, hu]
  exact Cert.Gate.kernelGate_eq_refGate
    (fun j : Fin 256 => (∑ k : Fin 768, xr (ix2 r k) * wr (ix2 j k)) + br (ix1 j))
    (fun j : Fin 256 => sr (ix2 j e) * (1 / max (Real.sqrt (∑ j' : Fin 256, sr (ix2 j' e) * sr (ix2 j' e))) Cert.Gate.clampR))
    (Real.exp (tr (ix1 (0 : Fin 1)))) Cert.Gate.clampR Cert.Gate.clampR_pos

end Cert.Bridge

end
-- ==== Proof.lean ====
/-
  The cosine gate of a mixture-of-experts router: `normalize_rows(x · Wᵀ + b) · normalize_cols(sim) · exp t`, as one
  blocked kernel, against its plain reference, over the extended reals.

  Both programs compute each token's projection `p = x_r · Wᵀ + b` and each expert's similarity column over its clamped
  Euclidean norm, `u = sim_e / max ‖sim_e‖ D`. The reference then forms `(∑ⱼ (pⱼ / max ‖p‖ D) · uⱼ) · exp t`. The kernel
  never normalises the projection: it forms `(∑ⱼ pⱼ · (uⱼ · exp t)) · ρ`, where `ρ` is a reciprocal square root of the
  clamped SQUARED norm `max ‖p‖² D²`, refined by one Newton step `ρ ↦ ρ · (3/2 − 1/2 · a · ρ · ρ)`. The kernel's clamp of
  the squared norm is named as the exact square `D · D` of the reference's clamp `D` of the norm (the float pattern it is
  printed with is the rounding of that square); that naming is the one entry of the idealization's ledger.

  On real inputs the two are one function (Proof/Gate.lean): the exact reciprocal root is a fixed point of the Newton
  step, the square root is monotone so `max ‖p‖ D = √(max ‖p‖² D²)`, and the scalar `1/√·` moves across the finite sum by
  distributivity — a law of the reals, not of the extended reals, which is why the precondition that every input entry
  is finite is spent (Proof/Finite.lean). The kernel's result array is read off its run block by block
  (Proof/KernelRow.lean: one entry of the body's result; Proof/KernelValue.lean: the 8 blocks tile the packed array, and
  the host line after the region transposes it); the reference's is read one host operation at a time
  (Proof/RefRead.lean); Proof/Bridge.lean joins them entry by entry.
-/
import proofs.«111263_g85023172591907_cont_9to1c4b_591_32_alg».proof.Defs
import proofs.«111263_g85023172591907_cont_9to1c4b_591_32_alg».proof.Proof.Gen.Kernel
import proofs.«111263_g85023172591907_cont_9to1c4b_591_32_alg».proof.Proof.Gen.Kernel.Skeleton
import proofs.«111263_g85023172591907_cont_9to1c4b_591_32_alg».proof.Proof.Gen.Kernel.Launch
import proofs.«111263_g85023172591907_cont_9to1c4b_591_32_alg».proof.Proof.Gen.Kernel.Points
import proofs.«111263_g85023172591907_cont_9to1c4b_591_32_alg».proof.Proof.Gen.Kernel.Frame
import proofs.«111263_g85023172591907_cont_9to1c4b_591_32_alg».proof.Proof.Gen.KernelIdeal
import proofs.«111263_g85023172591907_cont_9to1c4b_591_32_alg».proof.Proof.Gen.KernelIdeal.Skeleton
import proofs.«111263_g85023172591907_cont_9to1c4b_591_32_alg».proof.Proof.Gen.KernelIdeal.Launch
import proofs.«111263_g85023172591907_cont_9to1c4b_591_32_alg».proof.Proof.Gen.KernelIdeal.Points
import proofs.«111263_g85023172591907_cont_9to1c4b_591_32_alg».proof.Proof.Gen.KernelIdeal.Frame
import proofs.«111263_g85023172591907_cont_9to1c4b_591_32_alg».proof.Proof.Gen.ReferenceIdeal
import proofs.«111263_g85023172591907_cont_9to1c4b_591_32_alg».proof.Proof.Gen.ReferenceIdeal.Run
import proofs.«111263_g85023172591907_cont_9to1c4b_591_32_alg».proof.Proof.Gen.ReferenceIdeal.Read
import proofs.«111263_g85023172591907_cont_9to1c4b_591_32_alg».proof.Proof.Gen.Pre_finite_inputs
import proofs.«111263_g85023172591907_cont_9to1c4b_591_32_alg».proof.Proof.KernelValue
import proofs.«111263_g85023172591907_cont_9to1c4b_591_32_alg».proof.Proof.RefRead
import proofs.«111263_g85023172591907_cont_9to1c4b_591_32_alg».proof.Proof.Finite
import proofs.«111263_g85023172591907_cont_9to1c4b_591_32_alg».proof.Proof.Bridge
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ledger's one entry: the clamp of the squared norm is named, and denotes the square of the reference's clamp. -/
theorem preserves : Cert.preserves_Kernel_KernelIdeal :=
  IdealRules.named_const.statement Cert.KernelIdeal.κ "eps_sq" .f32 0x179ABE15#32
    ((5316911940649 / 5316911983139663491615228241121378304 : ℝ) : EReal) rfl

/-- From memories that agree on the five arguments, all entries finite, both programs end with the same result: the
    kernel's is `result` of the arguments, the reference's its last stage of the same arguments, and those are one array
    once every entry is a real. -/
theorem algebraic : Cert.algebraic_KernelIdeal_ReferenceIdeal := by
  intro m ρ m' ρ' hpre hagree
  refine ⟨fun c => Cert.KernelIdeal.GateValue.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.GateValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, (hagree c).1, (hagree c).2.1, (hagree c).2.2.1, (hagree c).2.2.2.1,
    (hagree c).2.2.2.2]
  obtain ⟨h0, h1, h2, h3, h4⟩ := Cert.Pre_finite_inputs.Finite.reals_of_pre _ _ _ _ _ (hpre c)
  exact (Cert.Bridge.result_eq _ _ _ _ _ h0 h1 h2 h3 h4).symm

theorem claim : Cert.Claim := ⟨Cert.Kernel.Gen.facts, Cert.KernelIdeal.Gen.facts, Cert.ReferenceIdeal.Gen.facts,
  Cert.Pre_finite_inputs.Gen.facts, frame_kernel, frame_kernelIdeal, frame_referenceIdeal, preserves, algebraic⟩

end Cert.Proof

end
